-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x4096 : Shape := ⟨2, ![64, 4096]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4096x64 .f32) (main_arg1 : FVec F S64x4096 .f32) (main_arg2 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4096x64 : Shape := ⟨2, ![4096, 64]⟩
abbrev S64x4096 : Shape := ⟨2, ![64, 4096]⟩
abbrev S64 : Shape := ⟨1, ![64]⟩
abbrev S1x64 : Shape := ⟨2, ![1, 64]⟩
abbrev S4096x4096 : Shape := ⟨2, ![4096, 4096]⟩
abbrev S256x64 : Shape := ⟨2, ![256, 64]⟩
abbrev S256x4096 : Shape := ⟨2, ![256, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S4096x4096, .f32⟩
  | .local _ .vmem, ⟨0, _⟩ => ⟨S1x64, .f32⟩
  | .local _ .vmem, ⟨1, _⟩ => ⟨S256x64, .f32⟩
  | .local _ .vmem, ⟨2, _⟩ => ⟨S256x64, .f32⟩
  | .local _ .vmem, ⟨3, _⟩ => ⟨S64x4096, .f32⟩
  | .local _ .vmem, ⟨4, _⟩ => ⟨S256x4096, .f32⟩
  | .local _ .vmem, ⟨5, _⟩ => ⟨S256x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x4096_S64x4096_0_0 : ∀ a, (![0, 0] : Fin 2 → Nat) a + S64x4096.size a ≤ S64x4096.size a
  h_S64x4096 : 0 < S64x4096.numel
  inb_S256x4096_S256x4096_0_0 : ∀ a, (![0, 0] : Fin 2 → Nat) a + S256x4096.size a ≤ S256x4096.size a
  h_S256x4096 : 0 < S256x4096.numel
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_v0) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64 : Shape := ⟨2, ![4096, 64]⟩
abbrev S64x4096 : Shape := ⟨2, ![64, 4096]⟩
abbrev S64 : Shape := ⟨1, ![64]⟩
abbrev S_ : Shape := ⟨0, ![]⟩
abbrev S64x64 : Shape := ⟨2, ![64, 64]⟩
abbrev S64x1 : Shape := ⟨2, ![64, 1]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x4096, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x1, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x4096, .f32⟩
  | .hbm, ⟨17, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩

abbrev nD : Nat := 1
abbrev τ : Topo := Topo.v7x

variable {F : FTy → Type} [FloatOps F]

class Facts₀ : Prop where
  pads_S64_S64_000 : S64.Pads (![0] : Fin 1 → Nat) ![0] ![0] S64
  h_S_ : 0 < S_.numel
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S64x64_S64x4096_S64x4096_1_0_0_1_n_n_wf : DotDims.WF S64x64 S64x4096 S64x4096 [1] [0] [0] [1] [] []
  dot_S4096x64_S64x4096_S4096x4096_1_0_0_1_n_n_wf : DotDims.WF S4096x64 S64x4096 S4096x4096 [1] [0] [0] [1] [] []

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  What both programs compute, and the law that joins them.

  From `A : [4096, 64]`, `B : [64, 4096]` and a weight vector `W : [64]` the result at row `p` and column `q` is
      ∑ k, (A p k · W k) · B k q,
  the product of `A` with its columns scaled by `W`, times `B`.

  The reference instead forms the diagonal matrix `D k l = if k = l then W k else 0`, then `D · B`, then
  `A · (D · B)`. In a row of `D · B` every term off the diagonal is `0 · B l q = 0` — on the extended reals
  zero times anything, an infinity included, is zero — so the row's sum is its one diagonal term `W k · B k q`; and
  `A p k · (W k · B k q) = (A p k · W k) · B k q` by associativity of the product, which holds on the extended reals
  without any finiteness.
-/
import Idealize.ShloMosaic.PureOps.Ideal
import Idealize.ShloMosaic.Lib.ValueIdx

noncomputable section

namespace Cert.ScaledProduct

open Idealize.ShloMosaic Idealize.ShloMosaic.ValueIdx

/-- The result array: at `(p, q)` the sum over `k` of `(A p k · W k) · B k q`. -/
def G (A : (⟨2, ![4096, 64]⟩ : Shape).Idx → EReal) (B : (⟨2, ![64, 4096]⟩ : Shape).Idx → EReal)
    (W : (⟨1, ![64]⟩ : Shape).Idx → EReal) : (⟨2, ![4096, 4096]⟩ : Shape).Idx → EReal :=
  fun i => ∑ k : Fin 64, A (ix2 (i 0) k) * W (ix1 k) * B (ix2 k (i 1))

theorem G_apply (A : (⟨2, ![4096, 64]⟩ : Shape).Idx → EReal) (B : (⟨2, ![64, 4096]⟩ : Shape).Idx → EReal)
    (W : (⟨1, ![64]⟩ : Shape).Idx → EReal) (p q : Fin 4096) :
    G A B W (ix2 p q) = ∑ k : Fin 64, A (ix2 p k) * W (ix1 k) * B (ix2 k q) := rfl

/-- A row of a diagonal matrix times a column: only the diagonal term is left. -/
theorem sum_diag_mul {n : Nat} (w b : Fin n → EReal) (k : Fin n) :
    ∑ l : Fin n, (if k = l then w k else 0) * b l = w k * b k := by
  rw [Finset.sum_eq_single k]
  · rw [if_pos rfl]
  · intro l _ hl
    rw [if_neg (Ne.symm hl), zero_mul]
  · intro h
    exact absurd (Finset.mem_univ k) h

/-- Multiplying through a diagonal matrix is scaling: `∑ k, a k · (∑ l, D k l · b l) = ∑ k, (a k · w k) · b k`. -/
theorem sum_mul_diag {n : Nat} (a w b : Fin n → EReal) :
    ∑ k : Fin n, a k * ∑ l : Fin n, (if k = l then w k else 0) * b l = ∑ k : Fin n, a k * w k * b k :=
  Finset.sum_congr rfl fun k _ => by rw [sum_diag_mul, mul_assoc]

end Cert.ScaledProduct

end
-- ==== Proof.LibPlainDot.lean ====
/-
  A matrix product read at a pair of coordinates.

  For dimension numbers of the plain kind — the left operand `[M, K]` contracted on its axis 1, the right operand
  `[K, N]` contracted on its axis 0, no batch axis, the result `[M, N]` — the product read at the extended reals at
  row `p` and column `q` is the sum over `k : Fin K` of the left operand at `(p, k)` times the right operand at
  `(k, q)`. Stated for any record of dimension numbers whose six lists are those (`IsPlain`), so that it serves every
  printed record of this kind, whatever the extents; for the vector unit's product into a zero accumulator and for the
  host's product alike.
-/
import Idealize.ShloMosaic.PureOps.Ideal.Laws
import Idealize.ShloMosaic.Lib.ValueIdx

noncomputable section

namespace Cert.Lib.PlainDot

open Idealize.ShloMosaic Idealize.ShloMosaic.ValueIdx

variable {M K N : Nat}

/-- The dimension numbers are the plain ones: contract the left operand's axis 1 with the right operand's axis 0, the
    left operand's axis 0 and the right operand's axis 1 free, no batch axis. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- Equal positions of an index give equal coordinates. -/
private theorem coord_congr {s : Shape} (i : s.Idx) (a b : Nat) (ha : a < s.rank) (hb : b < s.rank) (h : a = b) :
    (i ⟨a, ha⟩).val = (i ⟨b, hb⟩).val := by subst h; rfl

/-- The left operand's row is the result's row. -/
theorem lhs_row (h : IsPlain d) (i : (⟨2, ![M, N]⟩ : Shape).Idx) (k : d.contr.Idx) : (d.lhsIdx i k 0).val = (i 0).val := by
  unfold DotDims.lhsIdx
  rw [dif_neg (show ¬(0 : Fin 2) ∈ d.lhsBatch by rw [h.lb]; exact List.not_mem_nil),
    dif_pos (show (0 : Fin 2) ∈ d.lhsNonContracting by rw [h.ln]; exact List.mem_singleton.mpr rfl)]
  simp only [Fin.val_cast]
  exact coord_congr i _ _ _ _ (by simp [h.lb, h.ln])

/-- The left operand's column is the contraction coordinate. -/
theorem lhs_col (h : IsPlain d) (i : (⟨2, ![M, N]⟩ : Shape).Idx) (k : d.contr.Idx) :
    (d.lhsIdx i k 1).val = (k ⟨0, by rw [d.rank_contr, h.lc]; exact Nat.one_pos⟩).val :=
  d.lhsIdx_val_of_single h.lc i k

/-- The right operand's row is the contraction coordinate. -/
theorem rhs_row (h : IsPlain d) (i : (⟨2, ![M, N]⟩ : Shape).Idx) (k : d.contr.Idx) :
    (d.rhsIdx i k 0).val = (k ⟨0, by rw [d.rank_contr, h.lc]; exact Nat.one_pos⟩).val :=
  d.rhsIdx_val_of_single h.rc i k

/-- The right operand's column is the result's column. -/
theorem rhs_col (h : IsPlain d) (i : (⟨2, ![M, N]⟩ : Shape).Idx) (k : d.contr.Idx) : (d.rhsIdx i k 1).val = (i 1).val := by
  unfold DotDims.rhsIdx
  rw [dif_neg (show ¬(1 : Fin 2) ∈ d.rhsBatch by rw [h.rb]; exact List.not_mem_nil),
    dif_pos (show (1 : Fin 2) ∈ d.rhsNonContracting by rw [h.rn]; exact List.mem_singleton.mpr rfl)]
  simp only [Fin.val_cast]
  exact coord_congr i _ _ _ _ (by simp [h.lb, h.ln, h.rn])

theorem rank_contr (h : IsPlain d) : d.contr.rank = 1 := by rw [d.rank_contr, h.lc]; rfl

theorem size_contr (h : IsPlain d) : d.contr.size ⟨0, by rw [rank_contr h]; exact Nat.one_pos⟩ = K := by
  rw [d.size_contr 0 (by rw [h.lc]; exact Nat.one_pos)]
  simp [h.lc]

/-- The contraction sum of a plain product, at row `p` and column `q`, is the sum over `k : Fin K` of the left operand at
    `(p, k)` times the right at `(k, q)`. -/
theorem sum_contr (h : IsPlain d) (l : (⟨2, ![M, K]⟩ : Shape).Idx → EReal) (r : (⟨2, ![K, N]⟩ : Shape).Idx → EReal)
    (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (rank_contr h) (size_contr h)).symm]
  refine Finset.sum_congr rfl fun k _ => ?_
  have hk := contrEquiv1_symm_val d K (rank_contr h) (size_contr h) k
  have el : d.lhsIdx (ix2 p q) ((contrEquiv1 d K (rank_contr h) (size_contr h)).symm k) = ix2 p k :=
    funext fun a => Fin.ext (by
      match a with
      | ⟨0, _⟩ => exact lhs_row h _ _
      | ⟨1, _⟩ => exact (lhs_col h _ _).trans hk)
  have er : d.rhsIdx (ix2 p q) ((contrEquiv1 d K (rank_contr h) (size_contr h)).symm k) = ix2 k q :=
    funext fun a => Fin.ext (by
      match a with
      | ⟨0, _⟩ => exact (rhs_row h _ _).trans hk
      | ⟨1, _⟩ => exact rhs_col h _ _)
  rw [el, er]

/-- The vector unit's product into a zero accumulator, at the extended reals, read at row `p` and column `q`. -/
theorem matmul_zero_apply (h : IsPlain d) (prec : Option ContractPrecision) (l : FVec Ideal ⟨2, ![M, K]⟩ .f32)
    (r : FVec Ideal ⟨2, ![K, N]⟩ .f32) (p : Fin M) (q : Fin N) :
    matmul d prec l r (constant (F := Ideal) ⟨2, ![M, N]⟩ .f32 0x00000000#32) (ix2 p q) = ∑ k : Fin K, l (ix2 p k) * r (ix2 k q) :=
  (Ideal.matmul_constant_zero_apply d prec l r (ix2 p q)).trans (sum_contr h l r p q)

/-- The host's product, at the extended reals, read at row `p` and column `q`. -/
theorem dotGeneral_apply (h : IsPlain d) (prec : Option ContractPrecision) (l : FVec Ideal ⟨2, ![M, K]⟩ .f32)
    (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr h l r p q)

end Cert.Lib.PlainDot

end
-- ==== Proof.KernelValue.lean ====
/-
  The kernel's result array, as one function of the argument arrays.

  The grid has sixteen points. Point `t` loads rows `256 t … 256 t + 255` of `A`, the whole of `B`, and the weight
  vector as a single row `[1, 64]` (the host reshapes `W` into that row before the launch); its body scales the
  columns of the loaded rows by the weights and multiplies the result into `B`, so the block it writes back holds, at
  local row `r` and column `q`, the sum over `k` of `(A (256 t + r) k · W k) · B k q`: block `t` of the specified
  array. The sixteen blocks tile the 4096 rows, so after the run the result array is the specified array.
-/
import proofs.«130868_g11768210391385_cont_sun_m_794_2_alg».proof.Proof.Gen.KernelIdeal.Value
import proofs.«130868_g11768210391385_cont_sun_m_794_2_alg».proof.Proof.Spec
import proofs.«130868_g11768210391385_cont_sun_m_794_2_alg».proof.Proof.LibPlainDot
import Idealize.ShloMosaic.Lib.ValueLayout
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.Lib Cert.ScaledProduct

variable (m : (ℓ : Loc nD τ sig) → Buf (Elt Ideal) ℓ) (ρ : Dev nD → PrngReg)

/-! ## The body's arithmetic at a pair of coordinates -/

theorem plain_body : PlainDot.IsPlain (M := 256) (K := 64) (N := 4096) dot_S256x64_S64x4096_S256x4096_1_0_0_1_n_n :=
  ⟨rfl, rfl, rfl, rfl, rfl, rfl⟩

/-- What the body stores, at local row `r` and column `q`: the loaded rows scaled columnwise by the weight row, times
    the loaded right operand. -/
theorem pay_apply (x1 : Vec Ideal S256x64 .f32) (x0 : Vec Ideal S1x64 .f32) (x2 : Vec Ideal S64x4096 .f32)
    (r : Fin 256) (q : Fin 4096) :
    k0_pay1 (F := Ideal) x1 x0 x2 (ix2 r q) = ∑ k : Fin 64, x1 (ix2 r k) * x0 (ix2 (0 : Fin 1) k) * x2 (ix2 k q) := by
  unfold k0_pay1
  refine (PlainDot.matmul_zero_apply plain_body none _ x2 r q).trans ?_
  refine Finset.sum_congr rfl fun k _ => ?_
  congr 1
  rw [mulf_apply, shapeCast_self, broadcastTo_1b_ab_apply]

/-! ## The weight row the region finds -/

/-- The one host operation before the launch reshapes the weight vector into a row: the row's entry `k` is `W k`. -/
theorem row_apply (c : Dev nD) (k : Fin 64) :
    (V m c main_v0 : S1x64.Idx → EReal) (ix2 (0 : Fin 1) k) = (V m c main_arg2 : S64.Idx → EReal) (ix1 k) := by
  have e : (V m c main_v0 : S1x64.Idx → EReal)
      = shapeCast S1x64 (m ((c : Thread nD τ).loc main_arg2) : S64.Idx → EReal) shapeCasts_S64_S1x64 := by
    dsimp only [Gen.V, Gen.hostOps0]; after_results; rfl
  rw [e, V_main_arg2]
  exact shapeCast_a_1a_apply _ _ (0 : Fin 1) k

/-! ## Which block each window shows at a point -/

theorem hz : (![0, 0] : Fin 2 → Nat) = fun _ => 0 := funext fun a => by fin_cases a <;> rfl

/-- The printed index maps, decided over the sixteen points: the weight row and the right operand stay at block
    `(0, 0)`; the left operand's row block is the output's, its column block `0`; the output's row block is at most
    fifteen, its column block `0`. -/
theorem idx_facts : ∀ t : Fin cfg0.N, win0_0.index t (0 : Fin 2) = 0 ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every row block is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-! ## What a point writes back -/

/-- Point `t` writes back block `t` of the specified array of the arrays the region finds. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Value.flushed3]
  unfold out0_3
  rw [View.canon_unit_zero hz]
  simp only [View.ld_unit_zero (S := S256x64) hz, View.ld_unit_zero (S := S1x64) hz, View.ld_unit_zero (S := S64x4096) hz]
  obtain ⟨e00, e01, e10, e11, e20, e21, e3b, e31⟩ := idx_facts t
  funext j
  obtain ⟨r, q, rfl⟩ : ∃ (r : Fin 256) (q : Fin 4096), j = ix2 r q := ⟨j 0, j 1, eq_ix2 j⟩
  show k0_pay1 (F := Ideal) (iblk m c 1 t) (iblk m c 0 t) (iblk m c 2 t) (ix2 r q)
    = G (V m c main_arg0) (V m c main_arg1) (V m c main_arg2) (((cfg0.win 3).blk t).view.emb (ix2 r q))
  refine (pay_apply (iblk m c 1 t) (iblk m c 0 t) (iblk m c 2 t) r q).trans ?_
  refine Finset.sum_congr rfl fun k _ => ?_
  have h1 : iblk m c 1 t (ix2 r k) = (V m c main_arg0 : S4096x64.Idx → EReal) (ix2 ((((cfg0.win 3).blk t).view.emb (ix2 r q)) 0) k) := by
    show (V m c main_arg0 : S4096x64.Idx → EReal) (((cfg0.win 1).blk t).view.emb (ix2 r k)) = _
    refine congrArg _ (funext fun a => Fin.ext ?_)
    match a with
    | ⟨0, _⟩ => show win0_1.index t (0 : Fin 2) * 256 + 1 * r.val = win0_3.index t (0 : Fin 2) * 256 + 1 * r.val; omega
    | ⟨1, _⟩ => show win0_1.index t (1 : Fin 2) * 64 + 1 * k.val = k.val; omega
  have h0 : iblk m c 0 t (ix2 (0 : Fin 1) k) = (V m c main_arg2 : S64.Idx → EReal) (ix1 k) := by
    refine Eq.trans ?_ (row_apply m c k)
    show (V m c main_v0 : S1x64.Idx → EReal) (((cfg0.win 0).blk t).view.emb (ix2 (0 : Fin 1) k)) = _
    refine congrArg _ (funext fun a => Fin.ext ?_)
    match a with
    | ⟨0, _⟩ => show win0_0.index t (0 : Fin 2) * 1 + 1 * 0 = 0; omega
    | ⟨1, _⟩ => show win0_0.index t (1 : Fin 2) * 64 + 1 * k.val = k.val; omega
  have h2 : iblk m c 2 t (ix2 k q) = (V m c main_arg1 : S64x4096.Idx → EReal) (ix2 k ((((cfg0.win 3).blk t).view.emb (ix2 r q)) 1)) := by
    show (V m c main_arg1 : S64x4096.Idx → EReal) (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 4096 + 1 * q.val = win0_3.index t (1 : Fin 2) * 4096 + 1 * q.val; omega
  rw [h1, h0, h2]

/-! ## The blocks tile the array -/

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1).slice (win0_3.rect t)).set ↔ _
  rw [View.set_slice_whole, Rect.mem_set_unit]
  exact Iff.rfl

/-- Every index of the result array is in the block of the point whose row block holds its row. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-! ## The array after the run -/

/-- The result array after the run is the specified array of the three arguments as launched. -/
theorem final (c : Dev nD) :
    (dats m 0 c).arrAt 3 cfg0.N
      = G (m ((c : Thread nD τ).loc main_arg0)) (m ((c : Thread nD τ).loc main_arg1)) (m ((c : Thread nD τ).loc main_arg2)) := by
  rw [(dats m 0 c).arrAt_eq_of_cover 3 (G (V m c main_arg0) (V m c main_arg1) (V m c main_arg2))
    (fun t _ => flushed_eq m c t) cover, V_main_arg0, V_main_arg1, V_main_arg2]

/-- Every weakly fair execution of the kernel's program ends with the result buffer at the specified array of the
    arguments, and the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.BlockValue

end
-- ==== Proof.RefRun.lean ====
/-
  The reference program's run, read back.

  The reference computes `A · (diag(W) · B)`: it lays the weight vector `W` on the diagonal of a 64 × 64 matrix
  (two position tables, one per axis, compared entry by entry; `W` spread along the rows where they agree, zero
  elsewhere), multiplies that matrix into `B`, and multiplies `A` into the result. Its @main is a straight line of
  fifteen operations once the two functions it calls are unfolded at their calls; every weakly fair execution ends with
  the result buffer at those operations' composed term of the three arguments, and the arguments unchanged.
-/
import proofs.«130868_g11768210391385_cont_sun_m_794_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The weight vector laid on the diagonal: at row `k` and column `l` the entry is `W k` where the row's position equals
    the column's and zero elsewhere (the vector is first padded by nothing, then spread as a column along the rows). -/
def diag (W : FVec F S64 .f32) : FVec F S64x64 .f32 :=
  select
    (cmpi .eq (addi (iotaInDim S64x64 32 0) (broadcastInDim S64x64 ![] bcast_S_S64x64 (constantI S_ 32 0#32))) (iotaInDim S64x64 32 1))
    (broadcastInDim S64x64 ![0, 1] bcast_S64x1_S64x64_0_1
      (broadcastInDim S64x1 ![0] bcast_S64_S64x1_0
        (pad S64 ![0] ![0] ![0] W (constant (F := F) S_ .f32 0x00000000#32) pads_S64_S64_000 h_S_)))
    (broadcastInDim S64x64 ![] bcast_S_S64x64 (constant (F := F) S_ .f32 0x00000000#32))

/-- The reference's result: `A` times (the diagonal matrix times `B`). -/
def out (A : FVec F S4096x64 .f32) (B : FVec F S64x4096 .f32) (W : FVec F S64 .f32) : FVec F S4096x4096 .f32 :=
  Host.dotGeneral dot_S4096x64_S64x4096_S4096x4096_1_0_0_1_n_n none A
    (Host.dotGeneral dot_S64x64_S64x4096_S64x4096_1_0_0_1_n_n none (diag W) B)

/-- @main's fifteen operations, in order: the thirteen of the diagonal's construction (ten of the function that builds
    it, the last three those of the selection it calls) over that call's buffers, then the two products. -/
abbrev ops : List (HloOp τ sig (Elt F)) :=
  [ TRef.nullary main_call0.cst (constant S_ .f32 0x00000000#32),
    TRef.binary (.of main_arg2) main_call0.cst main_call0.v0 (fun x v => pad S64 ![0] ![0] ![0] x v pads_S64_S64_000 h_S_),
    TRef.nullary main_call0.v1 (iotaInDim S64x64 32 0),
    TRef.nullary main_call0.v2 (iotaInDim S64x64 32 1),
    TRef.nullary main_call0.c (constantI S_ 32 0#32),
    TRef.unary main_call0.c main_call0.v3 (broadcastInDim S64x64 ![] bcast_S_S64x64),
    TRef.binary main_call0.v1 main_call0.v3 main_call0.v4 addi,
    TRef.binary main_call0.v4 main_call0.v2 main_call0.v5 (cmpi .eq),
    TRef.unary main_call0.v0 main_call0.v6 (broadcastInDim S64x1 ![0] bcast_S64_S64x1_0),
    TRef.nullary main_call0.cst_0 (constant S_ .f32 0x00000000#32),
    TRef.unary main_call0.v6 main_call0.call0.v0 (broadcastInDim S64x64 ![0, 1] bcast_S64x1_S64x64_0_1),
    TRef.unary main_call0.cst_0 main_call0.call0.v1 (broadcastInDim S64x64 ![] bcast_S_S64x64),
    TRef.ternary main_call0.v5 main_call0.call0.v0 main_call0.call0.v1 main_call0.call0.v2 select,
    binary main_v0 main_arg1 main_v1 ((fun l r => Host.dotGeneral dot_S64x64_S64x4096_S64x4096_1_0_0_1_n_n none l r) : (⟨S64x64, .f32⟩ : BufTy).Contents (Elt F) → (⟨S64x4096, .f32⟩ : BufTy).Contents (Elt F) → (⟨S64x4096, .f32⟩ : BufTy).Contents (Elt F)),
    binary main_arg0 main_v1 main_v2 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)) ]

set_option maxRecDepth 1024 in
/-- @main is that straight line: the two functions unfolded at their calls, the sequencing reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., binary_bufs_sub .., binary_bufs_sub ..⟩

/-- The operations' fold at the result buffer is `out` of the arguments' contents. -/
theorem out_eq (V : Valuation τ sig (Elt F)) :
    after ops V (main_v2 : DevRef τ sig)
      = out (V (main_arg0 : DevRef τ sig)) (V (main_arg1 : DevRef τ sig)) (V (main_arg2 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

/-- On every device, for any float values, from any memory with zero counters: every weakly fair execution of @main
    terminates with the result buffer at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result, entry by entry.

  The matrix the reference builds from the weight vector has `W k` at `(k, k)` and zero elsewhere: the two position
  tables hold the row's and the column's position as 32-bit words, equal exactly when the positions are (both are
  below 64); the padding by nothing leaves `W` as it is; the spread along the rows reads `W` at the row. Each of the
  two products is a plain matrix product, so the result at `(p, q)` is `∑ k, A p k · ∑ l, D k l · B l q`, which the
  diagonal law turns into `∑ k, (A p k · W k) · B k q`.
-/
import proofs.«130868_g11768210391385_cont_sun_m_794_2_alg».proof.Proof.RefRun
import proofs.«130868_g11768210391385_cont_sun_m_794_2_alg».proof.Proof.Spec
import proofs.«130868_g11768210391385_cont_sun_m_794_2_alg».proof.Proof.LibPlainDot
import Idealize.ShloMosaic.Lib.StableHlo.Predicate

noncomputable section

namespace Cert.ReferenceIdeal.RefValue

open Cert.ReferenceIdeal Cert.ReferenceIdeal.Gen Cert.ReferenceIdeal.RefRun
open Idealize.ShloMosaic Idealize.ShloMosaic.ValueIdx Idealize.ShloMosaic.StableHlo
open Cert.Lib Cert.ScaledProduct

/-- Padding a vector by nothing — no low, high or interior padding — reads the vector itself. -/
theorem pad_none_apply {α : Type} {n : Nat} (x : (⟨1, ![n]⟩ : Shape).Idx → α) {u : Shape} (v : u.Idx → α)
    (h : (⟨1, ![n]⟩ : Shape).Pads (![0] : Fin 1 → Nat) ![0] ![0] ⟨1, ![n]⟩) (hu : 0 < u.numel) (k : Fin n) :
    pad (⟨1, ![n]⟩ : Shape) ![0] ![0] ![0] x v h hu (ix1 k) = x (ix1 k) := by
  unfold pad
  rw [dif_pos (fun a => by
    match a with
    | ⟨0, _⟩ => exact ⟨Nat.zero_le _, Nat.mod_one _, by simpa using k.isLt⟩)]
  congr 1
  funext a
  match a with
  | ⟨0, _⟩ => exact Fin.ext (by simp)

/-- The two position tables agree at `(k, l)` exactly when `k = l`. -/
theorem mask_iff (k l : Fin 64) :
    cmpi .eq (addi (iotaInDim S64x64 32 0) (broadcastInDim S64x64 ![] bcast_S_S64x64 (constantI S_ 32 0#32))) (iotaInDim S64x64 32 1) (ix2 k l) = (1 : BitVec 1)
      ↔ k = l := by
  show IntOp.cmpi .eq (IntOp.addi (BitVec.ofNat 32 k.val) 0#32) (BitVec.ofNat 32 l.val) = 1#1 ↔ k = l
  rw [Predicate.cmpi_eq_iff]
  unfold IntOp.addi
  rw [BitVec.add_zero]
  constructor
  · intro h
    have h' := congrArg BitVec.toNat h
    simp only [BitVec.toNat_ofNat] at h'
    have hk := k.isLt
    have hl := l.isLt
    exact Fin.ext (by omega)
  · rintro rfl
    rfl

/-- The weight vector, padded by nothing and spread along the rows, reads `W k` at `(k, l)`. -/
theorem spread_apply (W : FVec Ideal S64 .f32) (k l : Fin 64) :
    broadcastInDim S64x64 ![0, 1] bcast_S64x1_S64x64_0_1
      (broadcastInDim S64x1 ![0] bcast_S64_S64x1_0
        (pad S64 ![0] ![0] ![0] W (constant (F := Ideal) S_ .f32 0x00000000#32) pads_S64_S64_000 h_S_)) (ix2 k l) = W (ix1 k) :=
  (Predicate.bcast_rows bcast_S64_S64x1_0 bcast_S64x1_S64x64_0_1 _ k l).trans
    ((congrArg _ (funext fun d => by match d with | ⟨0, _⟩ => rfl)).trans
      (pad_none_apply W (constant (F := Ideal) S_ .f32 0x00000000#32) pads_S64_S64_000 h_S_ k))

/-- The matrix the reference builds: `W k` on the diagonal, zero off it. -/
theorem diag_apply (W : FVec Ideal S64 .f32) (k l : Fin 64) : diag W (ix2 k l) = if k = l then W (ix1 k) else 0 := by
  have hz : broadcastInDim S64x64 ![] bcast_S_S64x64 (constant (F := Ideal) S_ .f32 0x00000000#32) (ix2 k l) = 0 :=
    Ideal.ofBits_zero_f32
  rw [diag, select_apply, Scalar.select, spread_apply, hz]
  by_cases h : k = l
  · rw [if_pos ((mask_iff k l).mpr h), if_pos h]
  · rw [if_neg (mt (mask_iff k l).mp h), if_neg h]

theorem plain_outer : PlainDot.IsPlain (M := 4096) (K := 64) (N := 4096) dot_S4096x64_S64x4096_S4096x4096_1_0_0_1_n_n :=
  ⟨rfl, rfl, rfl, rfl, rfl, rfl⟩

theorem plain_inner : PlainDot.IsPlain (M := 64) (K := 64) (N := 4096) dot_S64x64_S64x4096_S64x4096_1_0_0_1_n_n :=
  ⟨rfl, rfl, rfl, rfl, rfl, rfl⟩

/-- The reference's result at `(p, q)` is `∑ k, (A p k · W k) · B k q`. -/
theorem out_apply (A : FVec Ideal S4096x64 .f32) (B : FVec Ideal S64x4096 .f32) (W : FVec Ideal S64 .f32) (p q : Fin 4096) :
    out A B W (ix2 p q) = G A B W (ix2 p q) := by
  rw [G_apply, ← sum_mul_diag (fun k => A (ix2 p k)) (fun k => W (ix1 k)) (fun k => B (ix2 k q))]
  unfold out
  refine (PlainDot.dotGeneral_apply plain_outer none A _ p q).trans ?_
  refine Finset.sum_congr rfl fun k _ => ?_
  congr 1
  refine (PlainDot.dotGeneral_apply plain_inner none (diag W) B k q).trans ?_
  refine Finset.sum_congr rfl fun l _ => ?_
  rw [diag_apply]

/-- So the reference's result IS the specified array. -/
theorem out_eq_G (A : FVec Ideal S4096x64 .f32) (B : FVec Ideal S64x4096 .f32) (W : FVec Ideal S64 .f32) :
    out A B W = G A B W := by
  funext i
  rw [eq_ix2 i]
  exact out_apply A B W (i 0) (i 1)

end Cert.ReferenceIdeal.RefValue

end
-- ==== Proof.lean ====
/-
  The kernel computes `A · diag(W) · B` by scaling the columns of `A` by the weight vector `W` and multiplying the
  result into `B`, sixteen row blocks of 256 rows one after the other; the reference forms the diagonal matrix of
  `W`, multiplies it into `B`, and multiplies `A` into that. On the extended reals both are, at row `p` and
  column `q`, the sum over `k` of `(A p k · W k) · B k q` (`Cert.ScaledProduct.G`): for the kernel because each
  block it writes back is that block of the array and the blocks tile it (`Cert.KernelIdeal.BlockValue`); for the
  reference because a row of a diagonal matrix times a column leaves only the diagonal term — zero times anything is
  zero on the extended reals — and the product is associative (`Cert.ReferenceIdeal.RefValue`). No finiteness of the
  inputs is used. The idealization rewrote nothing, so the kernel's idealization is its own text read at the ideal
  values.
-/
import proofs.«130868_g11768210391385_cont_sun_m_794_2_alg».proof.Defs
import proofs.«130868_g11768210391385_cont_sun_m_794_2_alg».proof.Proof.Gen.Kernel
import proofs.«130868_g11768210391385_cont_sun_m_794_2_alg».proof.Proof.Gen.Kernel.Skeleton
import proofs.«130868_g11768210391385_cont_sun_m_794_2_alg».proof.Proof.Gen.Kernel.Launch
import proofs.«130868_g11768210391385_cont_sun_m_794_2_alg».proof.Proof.Gen.Kernel.Points
import proofs.«130868_g11768210391385_cont_sun_m_794_2_alg».proof.Proof.Gen.Kernel.Frame
import proofs.«130868_g11768210391385_cont_sun_m_794_2_alg».proof.Proof.Gen.KernelIdeal
import proofs.«130868_g11768210391385_cont_sun_m_794_2_alg».proof.Proof.Gen.KernelIdeal.Skeleton
import proofs.«130868_g11768210391385_cont_sun_m_794_2_alg».proof.Proof.Gen.KernelIdeal.Launch
import proofs.«130868_g11768210391385_cont_sun_m_794_2_alg».proof.Proof.Gen.KernelIdeal.Points
import proofs.«130868_g11768210391385_cont_sun_m_794_2_alg».proof.Proof.Gen.KernelIdeal.Frame
import proofs.«130868_g11768210391385_cont_sun_m_794_2_alg».proof.Proof.Gen.ReferenceIdeal
import proofs.«130868_g11768210391385_cont_sun_m_794_2_alg».proof.Proof.Gen.Pre_finite_inputs
import proofs.«130868_g11768210391385_cont_sun_m_794_2_alg».proof.Proof.KernelValue
import proofs.«130868_g11768210391385_cont_sun_m_794_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the three arguments both programs end with the array `∑ k, (A p k · W k) · B k q`. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.out_eq_G _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
